-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x256 : Shape := ⟨2, ![2000, 256]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x64, .f32⟩
  | .local _ .vmem, ⟨8, _⟩ => ⟨S2000x64, .f32⟩
  | .local _ .vmem, ⟨9, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Gcn.lean ====
import proofs.«125550_j14001593385007_1_alg».proof.Proof.Gen.KernelIdeal

/-!
# The graph convolution around the two dense transforms

Both programs compute a two-layer graph convolution. From the edge list `e : [2, 1600000]` they build the sources
and the destinations with one self loop per node appended (`src`, `dst`: `[1700000]`), the in-degree of every node
(`deg`: a scatter-add of ones over `dst`), its inverse square root where the degree is positive and zero elsewhere
(`dinv`), and the edge weight `norm = dinv[src] · dinv[dst]` (negative indices wrapped by the node count first,
as array indexing does). A layer then takes a transformed feature matrix `h`, gathers its rows at `src`, scales row
`j` by `norm[j]`, adds the rows up at `dst` and adds the bias; the first layer ends in a maximum with zero.

Everything here is a composition of the host operations the two programs share, stated once, as functions of the
arrays they read; the dense transforms `x · W₁` and `h · W₂` are NOT part of it: a layer takes the transformed
matrix as an argument. The two programs differ only in how they form those two products.
-/

noncomputable section

namespace Cert.Gcn

open Idealize.ShloMosaic Cert.KernelIdeal Cert.KernelIdeal.Facts₀

variable {F : FTy → Type} [FloatOps F]

/-- The edge sources followed by every node once (the self loops). -/
def src (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edge destinations followed by every node once. -/
def dst (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative index counts from the end: `s < 0 ? s + 100000 : s`, then laid as a column of start indices. -/
def at_ (s : (⟨S1700000, .i32⟩ : BufTy).Contents (Elt F)) : (⟨S1700000x1, .i32⟩ : BufTy).Contents (Elt F) :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- The in-degree of every node, self loop included: ones added up at the destinations. -/
def deg (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- Where the degree is positive. -/
def degPos (d : (⟨S1700000, .i32⟩ : BufTy).Contents (Elt F)) : (⟨S100000, .i1⟩ : BufTy).Contents (Elt F) :=
  cmpf .ogt (deg d) (broadcastInDim S100000 ![] bcast_S_S100000 (constant S_ .f32 0x00000000#32))

/-- `deg^(-1/2)`, entry by entry. -/
def degRsqrt (d : (⟨S1700000, .i32⟩ : BufTy).Contents (Elt F)) : (⟨S100000, .f32⟩ : BufTy).Contents (Elt F) :=
  Host.rsqrt (deg d)

/-- The choice between a vector and a scalar splat, entry by entry: `p ? r : z`. -/
def choose (p : (⟨S100000, .i1⟩ : BufTy).Contents (Elt F)) (r : (⟨S100000, .f32⟩ : BufTy).Contents (Elt F)) (z : (⟨S_, .f32⟩ : BufTy).Contents (Elt F)) : (⟨S100000, .f32⟩ : BufTy).Contents (Elt F) :=
  select p r (broadcastInDim S100000 ![] bcast_S_S100000 (id z))

/-- `deg^(-1/2)` where the degree is positive, zero elsewhere. -/
def dinv (d : (⟨S1700000, .i32⟩ : BufTy).Contents (Elt F)) : (⟨S100000, .f32⟩ : BufTy).Contents (Elt F) :=
  choose (degPos d) (degRsqrt d) (constant S_ .f32 0x00000000#32)

/-- The weight of every edge from a per-node factor `v`: `v[src] · v[dst]`. -/
def weights (v : (⟨S100000, .f32⟩ : BufTy).Contents (Elt F)) (s d : (⟨S1700000, .i32⟩ : BufTy).Contents (Elt F)) : (⟨S1700000, .f32⟩ : BufTy).Contents (Elt F) :=
  mulf (Host.gather gather_S100000_S1700000x1_S1700000_n_0_n_n_0_1_1 v (at_ s)) (Host.gather gather_S100000_S1700000x1_S1700000_n_0_n_n_0_1_1 v (at_ d))

/-- The weight of every edge: `dinv[src] · dinv[dst]`. -/
def norm (s d : (⟨S1700000, .i32⟩ : BufTy).Contents (Elt F)) : (⟨S1700000, .f32⟩ : BufTy).Contents (Elt F) :=
  weights (dinv d) s d

/-- The first layer after its dense transform `h`: rows gathered at the sources, scaled by the edge weights, added up
    at the destinations, the bias added, the maximum with zero taken. -/
def layer1 (h : (⟨S100000x128, .f32⟩ : BufTy).Contents (Elt F)) (s d : (⟨S1700000, .i32⟩ : BufTy).Contents (Elt F)) (n : (⟨S1700000, .f32⟩ : BufTy).Contents (Elt F)) (b : (⟨S128, .f32⟩ : BufTy).Contents (Elt F)) : (⟨S100000x128, .f32⟩ : BufTy).Contents (Elt F) :=
  maximumf (addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (at_ s)) (broadcastInDim S1700000x128 ![0, 1] bcast_S1700000x1_S1700000x128_0_1 (broadcastInDim S1700000x1 ![0] bcast_S1700000_S1700000x1_0 n)))) (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The second layer after its dense transform `z`: the same aggregation over 64 columns, the bias added. -/
def layer2 (z : (⟨S100000x64, .f32⟩ : BufTy).Contents (Elt F)) (s d : (⟨S1700000, .i32⟩ : BufTy).Contents (Elt F)) (n : (⟨S1700000, .f32⟩ : BufTy).Contents (Elt F)) (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 z (at_ s)) (broadcastInDim S1700000x64 ![0, 1] bcast_S1700000x1_S1700000x64_0_1 (broadcastInDim S1700000x1 ![0] bcast_S1700000_S1700000x1_0 n)))) (broadcastInDim S100000x64 ![0, 1] bcast_S1x64_S100000x64_0_1 (broadcastInDim S1x64 ![1] bcast_S64_S1x64_1 b))

end Cert.Gcn

end
-- ==== Proof.KernelChain.lean ====
import proofs.«125550_j14001593385007_1_alg».proof.Proof.Gen.KernelIdeal.Frame
import proofs.«125550_j14001593385007_1_alg».proof.Proof.Gcn
import Idealize.ShloMosaic.Lib.StableHlo.Run

/-!
# What the kernel's program leaves in its result buffer

The program is six stretches of host operations around two calls. Reading the buffer contents back from the last
boundary to the launch: the last stretch is the second layer's aggregation of the second call's result; the second
call's result is the product of the hidden features by `W₂`; the hidden features are the first layer's aggregation
(and maximum with zero) of the first call's result; the first call's result is the product of `x` by `W₁`; and the
sources, the destinations and the edge weights, built by the first three stretches from the edge list, are written
once and read by both layers. No stretch and no call writes an argument array.
-/

set_option maxRecDepth 16384

noncomputable section

namespace Cert.KernelIdeal.Out

open Idealize.ShloMosaic Idealize.ShloMosaic.TcCoe Idealize.ShloMosaic.StableHlo Idealize.SL.Sem
open Cert.KernelIdeal Cert.KernelIdeal.Gen

section Chain

variable {F : FTy → Type} [FloatOps F]
variable (m : (ℓ : Loc nD τ sig) → Buf (Elt F) ℓ) (ρ : Dev nD → PrngReg)

/-! ## The last stretch: the second layer's aggregation -/

set_option maxHeartbeats 8000000 in
theorem out_at_end (c : Dev nD) :
    W8 m ρ c (Proc.devRef .tc main_v64) = Cert.Gcn.layer2 (W7 m ρ c (Proc.devRef .tc main_v48)) (W7 m ρ c (Proc.devRef .tc main_v5))
      (W7 m ρ c (Proc.devRef .tc main_v6)) (W7 m ρ c (Proc.devRef .tc main_v29)) (W7 m ρ c (Proc.devRef .tc main_arg5)) := by
  dsimp only [W8, hostOps2]
  after_results_simp
  rfl

/-! ## Across the second call: its result is its pipeline's, every other buffer is kept -/

theorem prod2_at_exit (c : Dev nD) : W7 m ρ c (Proc.devRef .tc main_v48) = (dat1 (V6 m ρ) c).arrAt 2 cfg1.N := W7_arr m ρ c 2
theorem src_across2 (c : Dev nD) : W7 m ρ c (Proc.devRef .tc main_v5) = W6 m ρ c (Proc.devRef .tc main_v5) := W7_of_ne m ρ c main_v5 (by decide)
theorem dst_across2 (c : Dev nD) : W7 m ρ c (Proc.devRef .tc main_v6) = W6 m ρ c (Proc.devRef .tc main_v6) := W7_of_ne m ρ c main_v6 (by decide)
theorem norm_across2 (c : Dev nD) : W7 m ρ c (Proc.devRef .tc main_v29) = W6 m ρ c (Proc.devRef .tc main_v29) := W7_of_ne m ρ c main_v29 (by decide)
theorem b2_across2 (c : Dev nD) : W7 m ρ c (Proc.devRef .tc main_arg5) = W6 m ρ c (Proc.devRef .tc main_arg5) := W7_of_ne m ρ c main_arg5 (by decide)

/-! ## The two stretches between the calls: the first layer's aggregation -/

set_option maxHeartbeats 8000000 in
theorem hidden_at_entry2 (c : Dev nD) :
    W6 m ρ c (Proc.devRef .tc main_v47) = Cert.Gcn.layer1 (W4 m ρ c (Proc.devRef .tc main_v30)) (W4 m ρ c (Proc.devRef .tc main_v5))
      (W4 m ρ c (Proc.devRef .tc main_v6)) (W4 m ρ c (Proc.devRef .tc main_v29)) (W4 m ρ c (Proc.devRef .tc main_arg3)) := by
  dsimp only [W6, W5, hostOps1_1, hostOps1]
  after_results_simp
  rfl
theorem src_between (c : Dev nD) : W6 m ρ c (Proc.devRef .tc main_v5) = W4 m ρ c (Proc.devRef .tc main_v5) := by
  dsimp only [W6, W5, hostOps1_1, hostOps1]; after_results
theorem dst_between (c : Dev nD) : W6 m ρ c (Proc.devRef .tc main_v6) = W4 m ρ c (Proc.devRef .tc main_v6) := by
  dsimp only [W6, W5, hostOps1_1, hostOps1]; after_results
theorem norm_between (c : Dev nD) : W6 m ρ c (Proc.devRef .tc main_v29) = W4 m ρ c (Proc.devRef .tc main_v29) := by
  dsimp only [W6, W5, hostOps1_1, hostOps1]; after_results
theorem w2_between (c : Dev nD) : W6 m ρ c (Proc.devRef .tc main_arg4) = W4 m ρ c (Proc.devRef .tc main_arg4) := by
  dsimp only [W6, W5, hostOps1_1, hostOps1]; after_results
theorem b2_between (c : Dev nD) : W6 m ρ c (Proc.devRef .tc main_arg5) = W4 m ρ c (Proc.devRef .tc main_arg5) := by
  dsimp only [W6, W5, hostOps1_1, hostOps1]; after_results

/-! ## Across the first call -/

theorem prod1_at_exit (c : Dev nD) : W4 m ρ c (Proc.devRef .tc main_v30) = (dat0 (V3 m ρ) c).arrAt 2 cfg0.N := W4_arr m ρ c 2
theorem src_across1 (c : Dev nD) : W4 m ρ c (Proc.devRef .tc main_v5) = W3 m ρ c (Proc.devRef .tc main_v5) := W4_of_ne m ρ c main_v5 (by decide)
theorem dst_across1 (c : Dev nD) : W4 m ρ c (Proc.devRef .tc main_v6) = W3 m ρ c (Proc.devRef .tc main_v6) := W4_of_ne m ρ c main_v6 (by decide)
theorem norm_across1 (c : Dev nD) : W4 m ρ c (Proc.devRef .tc main_v29) = W3 m ρ c (Proc.devRef .tc main_v29) := W4_of_ne m ρ c main_v29 (by decide)
theorem b1_across1 (c : Dev nD) : W4 m ρ c (Proc.devRef .tc main_arg3) = W3 m ρ c (Proc.devRef .tc main_arg3) := W4_of_ne m ρ c main_arg3 (by decide)
theorem w2_across1 (c : Dev nD) : W4 m ρ c (Proc.devRef .tc main_arg4) = W3 m ρ c (Proc.devRef .tc main_arg4) := W4_of_ne m ρ c main_arg4 (by decide)
theorem b2_across1 (c : Dev nD) : W4 m ρ c (Proc.devRef .tc main_arg5) = W3 m ρ c (Proc.devRef .tc main_arg5) := W4_of_ne m ρ c main_arg5 (by decide)

/-! ## The three stretches before the first call: the sources, the destinations, the edge weights

The first stretch builds the sources and the destinations (the two concatenates), the degrees, where they are
positive and their inverse square roots; the second (the outlined choice) the per-node factor; the third the edge
weights. Each boundary's contents are read from the boundary before. -/

theorem src_at_1 (c : Dev nD) : W1 m ρ c (Proc.devRef .tc main_v5) = Cert.Gcn.src (m ((c : Thread nD τ).loc main_arg1)) := by
  dsimp only [W1, hostOps0]
  after_results
  rfl
theorem dst_at_1 (c : Dev nD) : W1 m ρ c (Proc.devRef .tc main_v6) = Cert.Gcn.dst (m ((c : Thread nD τ).loc main_arg1)) := by
  dsimp only [W1, hostOps0]
  after_results
  rfl
set_option maxHeartbeats 4000000 in
theorem pos_at_1 (c : Dev nD) : W1 m ρ c (Proc.devRef .tc main_v12) = Cert.Gcn.degPos (Cert.Gcn.dst (m ((c : Thread nD τ).loc main_arg1))) := by
  dsimp only [W1, hostOps0]
  after_results
  rfl
set_option maxHeartbeats 4000000 in
theorem rsqrt_at_1 (c : Dev nD) : W1 m ρ c (Proc.devRef .tc main_v13) = Cert.Gcn.degRsqrt (Cert.Gcn.dst (m ((c : Thread nD τ).loc main_arg1))) := by
  dsimp only [W1, hostOps0]
  after_results
  rfl
theorem zero_at_1 (c : Dev nD) : W1 m ρ c (Proc.devRef .tc main_cst_2) = constant (F := F) S_ .f32 0x00000000#32 := by
  dsimp only [W1, hostOps0]
  after_results

theorem dinv_at_2 (c : Dev nD) :
    W2 m ρ c (Proc.devRef .tc main_v14) = Cert.Gcn.choose (W1 m ρ c (Proc.devRef .tc main_v12)) (W1 m ρ c (Proc.devRef .tc main_v13)) (W1 m ρ c (Proc.devRef .tc main_cst_2)) := by
  dsimp only [W2, hostOps0_1]
  after_results_simp
  rfl
theorem src_at_2 (c : Dev nD) : W2 m ρ c (Proc.devRef .tc main_v5) = W1 m ρ c (Proc.devRef .tc main_v5) := by
  dsimp only [W2, hostOps0_1]; after_results_simp
theorem dst_at_2 (c : Dev nD) : W2 m ρ c (Proc.devRef .tc main_v6) = W1 m ρ c (Proc.devRef .tc main_v6) := by
  dsimp only [W2, hostOps0_1]; after_results_simp

set_option maxHeartbeats 8000000 in
theorem norm_at_3 (c : Dev nD) :
    W3 m ρ c (Proc.devRef .tc main_v29) = Cert.Gcn.weights (W2 m ρ c (Proc.devRef .tc main_v14)) (W2 m ρ c (Proc.devRef .tc main_v5)) (W2 m ρ c (Proc.devRef .tc main_v6)) := by
  dsimp only [W3, hostOps0_2]
  after_results_simp
  rfl
theorem src_at_3 (c : Dev nD) : W3 m ρ c (Proc.devRef .tc main_v5) = W2 m ρ c (Proc.devRef .tc main_v5) := by
  dsimp only [W3, hostOps0_2]; after_results_simp
theorem dst_at_3 (c : Dev nD) : W3 m ρ c (Proc.devRef .tc main_v6) = W2 m ρ c (Proc.devRef .tc main_v6) := by
  dsimp only [W3, hostOps0_2]; after_results_simp

theorem src_at_entry1 (c : Dev nD) : W3 m ρ c (Proc.devRef .tc main_v5) = Cert.Gcn.src (m ((c : Thread nD τ).loc main_arg1)) := by
  rw [src_at_3, src_at_2, src_at_1]
theorem dst_at_entry1 (c : Dev nD) : W3 m ρ c (Proc.devRef .tc main_v6) = Cert.Gcn.dst (m ((c : Thread nD τ).loc main_arg1)) := by
  rw [dst_at_3, dst_at_2, dst_at_1]
theorem norm_at_entry1 (c : Dev nD) :
    W3 m ρ c (Proc.devRef .tc main_v29) = Cert.Gcn.norm (Cert.Gcn.src (m ((c : Thread nD τ).loc main_arg1))) (Cert.Gcn.dst (m ((c : Thread nD τ).loc main_arg1))) := by
  rw [norm_at_3, dinv_at_2, pos_at_1, rsqrt_at_1, zero_at_1, src_at_2, src_at_1, dst_at_2, dst_at_1]
  rfl
theorem x_at_entry1 (c : Dev nD) : W3 m ρ c (Proc.devRef .tc main_arg0) = m ((c : Thread nD τ).loc main_arg0) := by
  dsimp only [W3, W2, W1, hostOps0_2, hostOps0_1, hostOps0]; after_results <;> rfl
theorem w1_at_entry1 (c : Dev nD) : W3 m ρ c (Proc.devRef .tc main_arg2) = m ((c : Thread nD τ).loc main_arg2) := by
  dsimp only [W3, W2, W1, hostOps0_2, hostOps0_1, hostOps0]; after_results <;> rfl
theorem b1_at_entry1 (c : Dev nD) : W3 m ρ c (Proc.devRef .tc main_arg3) = m ((c : Thread nD τ).loc main_arg3) := by
  dsimp only [W3, W2, W1, hostOps0_2, hostOps0_1, hostOps0]; after_results <;> rfl
theorem w2_at_entry1 (c : Dev nD) : W3 m ρ c (Proc.devRef .tc main_arg4) = m ((c : Thread nD τ).loc main_arg4) := by
  dsimp only [W3, W2, W1, hostOps0_2, hostOps0_1, hostOps0]; after_results <;> rfl
theorem b2_at_entry1 (c : Dev nD) : W3 m ρ c (Proc.devRef .tc main_arg5) = m ((c : Thread nD τ).loc main_arg5) := by
  dsimp only [W3, W2, W1, hostOps0_2, hostOps0_1, hostOps0]; after_results <;> rfl

end Chain

end Cert.KernelIdeal.Out

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.Tile0.lean ====
import proofs.«125550_j14001593385007_1_alg».proof.Proof.Gen.KernelIdeal.Frame
import proofs.«125550_j14001593385007_1_alg».proof.Proof.LibContract
import Idealize.ShloMosaic.Lib.Pipeline.Value
import Idealize.ShloMosaic.Lib.ValueIdx

/-!
# The first dense transform, tile by tile, is the whole product

The first call multiplies the node features `x : [100000, 256]` by the weights `W₁ : [256, 128]` in fifty row
tiles: point `t` of the grid loads rows `2000 t … 2000 t + 1999` of `x` and all of `W₁`, forms their product into a
zero accumulator, and writes it back as rows `2000 t … 2000 t + 1999` of the result. On the extended reals the two
roundings to bf16 are the identity and the accumulator's zero adds nothing, so entry `(p, q)` of tile `t` is
`∑ k, x[2000 t + p, k] · W₁[k, q]`: entry `(2000 t + p, q)` of the product `x · W₁`. The fifty tiles cover every
row (row `r` lies in tile `r / 2000`), so the result array ends holding the whole product, whatever the contents
`V` the call finds in its two operand arrays.
-/

set_option maxRecDepth 16384

noncomputable section

namespace Cert.KernelIdeal.Tile0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The product of a `[100000, 256]` matrix by a `[256, 128]` matrix, entry by entry, on the extended reals. -/
def prod (x : FVec Ideal S100000x256 .f32) (w : FVec Ideal S256x128 .f32) : FVec Ideal S100000x128 .f32 :=
  fun i => ∑ k : Fin 256, x (ix2 (n0 := 100000) (i 0) k) * w (ix2 (n1 := 128) k (i 1))

/-- Its entry `(r, q)`. -/
theorem prod_apply (x : FVec Ideal S100000x256 .f32) (w : FVec Ideal S256x128 .f32) (r : Fin 100000) (q : Fin 128) :
    prod x w (ix2 r q) = ∑ k : Fin 256, x (ix2 r k) * w (ix2 k q) := rfl

/-- One tile's stored value at entry `(p, q)`: the sum over `k` of the loaded rows' `(p, k)` entry times the weights'
    `(k, q)` entry (the roundings to bf16 are the identity on the extended reals; the accumulator is the zero splat). -/
theorem pay_apply (x0 : Vec Ideal S2000x256 .f32) (x1 : Vec Ideal S256x128 .f32) (p : Fin 2000) (q : Fin 128) :
    k0_pay1 (F := Ideal) x0 x1 (ix2 p q) = ∑ k : Fin 256, x0 (ix2 p k) * x1 (ix2 k q) := by
  unfold k0_pay1
  exact Cert.LibDense.matmul_plain_zero_apply 2000 256 128 none (truncf .bf16 x0 bitsLt_bf16_f32)
    (truncf .bf16 x1 bitsLt_bf16_f32) p q

theorem zeros : (![0, 0] : Fin 2 → Nat) = fun _ => 0 := funext fun a => by fin_cases a <;> rfl

/-- The printed index maps over the fifty points: the feature window and the result window sit at block row `t`, block
    column 0; the weight window at block `(0, 0)`. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 50 := N_0 ▸ t.isLt

variable (V : (c : Dev nD) → (b : Ref sig .tc) → Buf (Elt Ideal) ((c : Thread nD τ).loc b))

/-- The feature tile at point `t` holds rows `2000 t …` of the feature array. -/
theorem x_tile (c : Dev nD) (t : Fin cfg0.N) (p : Fin 2000) (k : Fin 256) (r : Fin 100000) (hr : r.val = t.val * 2000 + p.val) :
    iblk0 V c 0 t (ix2 p k) = V c main_arg0 (ix2 r k) := by
  obtain ⟨e0, e1, -, -, -, -⟩ := index_facts t
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 2000 + 1 * p.val = r.val; omega
  | ⟨1, _⟩ => show win0_0.index t (1 : Fin 2) * 256 + 1 * k.val = k.val; omega

/-- The weight tile at every point is the whole weight array. -/
theorem w_tile (c : Dev nD) (t : Fin cfg0.N) (k : Fin 256) (q : Fin 128) :
    iblk0 V c 1 t (ix2 k q) = V c main_arg2 (ix2 k q) := by
  obtain ⟨-, -, e2, e3, -, -⟩ := index_facts t
  show V c main_arg2 (((cfg0.win 1).blk t).view.emb (ix2 k q)) = V c main_arg2 (ix2 k q)
  refine congrArg (V c main_arg2) ?_
  funext a; apply Fin.ext
  match a with
  | ⟨0, _⟩ => show win0_1.index t (0 : Fin 2) * 256 + 1 * k.val = k.val; omega
  | ⟨1, _⟩ => show win0_1.index t (1 : Fin 2) * 128 + 1 * q.val = q.val; omega

/-- Entry `(p, q)` of the result tile at point `t` is entry `(2000 t + p, q)` of the result array. -/
theorem out_tile (t : Fin cfg0.N) (p : Fin 2000) (q : Fin 128) (r : Fin 100000) (hr : r.val = t.val * 2000 + p.val) :
    ((cfg0.win 2).blk t).view.emb (ix2 p q) = (ix2 r q : S100000x128.Idx) := by
  obtain ⟨-, -, -, -, e4, e5⟩ := index_facts t
  funext a; apply Fin.ext
  match a with
  | ⟨0, _⟩ => show win0_2.index t (0 : Fin 2) * 2000 + 1 * p.val = r.val; omega
  | ⟨1, _⟩ => show win0_2.index t (1 : Fin 2) * 128 + 1 * q.val = q.val; omega

/-- What point `t` writes back is tile `t` of the product of the two operand arrays as the call finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero zeros]
  simp only [View.ld_unit_zero (S := S2000x256) zeros, View.ld_unit_zero (S := S256x128) zeros]
  funext j
  obtain ⟨p, q, rfl⟩ : ∃ (p : Fin 2000) (q : Fin 128), j = ix2 p q := ⟨j 0, j 1, eq_ix2 j⟩
  have ht := point_lt t
  have hrow : t.val * 2000 + p.val < 100000 := by have := p.isLt; omega
  show k0_pay1 (F := Ideal) (iblk0 V c 0 t) (iblk0 V c 1 t) (ix2 p q)
    = prod (V c main_arg0) (V c main_arg2) (((cfg0.win 2).blk t).view.emb (ix2 p q))
  rw [out_tile t p q ⟨t.val * 2000 + p.val, hrow⟩ rfl, prod_apply]
  refine (pay_apply (iblk0 V c 0 t) (iblk0 V c 1 t) p q).trans ?_
  refine Finset.sum_congr rfl fun k _ => ?_
  rw [x_tile V c t p k ⟨t.val * 2000 + p.val, hrow⟩ rfl, w_tile V c t k q]

/-- An index of the result array is in point `t`'s tile iff each coordinate is in the tile's range on its axis. -/
theorem mem_tile (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v30).slice (win0_2.rect t)).set ↔ _
  rw [View.set_slice_whole, Rect.mem_set_unit]
  exact Iff.rfl

/-- Every index of the result array is in some point's tile: row `r` in tile `r / 2000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 2000 < cfg0.N := by rw [show cfg0.N = 50 from N_0]; omega
  refine ⟨⟨(i 0).val / 2000, hN⟩, flush0_2 _, ?_⟩
  rw [mem_tile]
  obtain ⟨-, -, -, -, e4, e5⟩ := index_facts ⟨(i 0).val / 2000, hN⟩
  intro a
  match a with
  | ⟨0, _⟩ =>
    show win0_2.index ⟨(i 0).val / 2000, hN⟩ (0 : Fin 2) * 2000 ≤ (i 0).val
      ∧ (i 0).val < win0_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hN⟩ (1 : Fin 2) * 128 ≤ (i 1).val
      ∧ (i 1).val < win0_2.index ⟨(i 0).val / 2000, hN⟩ (1 : Fin 2) * 128 + 128
    rw [e5]; omega

/-- After the call the result array holds the product of the two operand arrays as the call found them. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) covered

end Cert.KernelIdeal.Tile0

end
-- ==== Proof.Tile1.lean ====
import proofs.«125550_j14001593385007_1_alg».proof.Proof.Gen.KernelIdeal.Frame
import proofs.«125550_j14001593385007_1_alg».proof.Proof.LibContract
import Idealize.ShloMosaic.Lib.Pipeline.Value
import Idealize.ShloMosaic.Lib.ValueIdx

/-!
# The second dense transform, tile by tile, is the whole product

The second call multiplies the hidden features `h : [100000, 128]` by the weights `W₂ : [128, 64]` in fifty row
tiles: point `t` of the grid loads rows `2000 t … 2000 t + 1999` of `h` and all of `W₂`, forms their product into a
zero accumulator, and writes it back as rows `2000 t … 2000 t + 1999` of the result. On the extended reals the two
roundings to bf16 are the identity, the cast of the loaded tile to its own shape is the identity and the accumulator's
zero adds nothing, so entry `(p, q)` of tile `t` is `∑ k, h[2000 t + p, k] · W₂[k, q]`: entry `(2000 t + p, q)` of the
product `h · W₂`. The fifty tiles cover every
row (row `r` lies in tile `r / 2000`), so the result array ends holding the whole product, whatever the contents
`V` the call finds in its two operand arrays.
-/

set_option maxRecDepth 16384

noncomputable section

namespace Cert.KernelIdeal.Tile1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The product of a `[100000, 128]` matrix by a `[128, 64]` matrix, entry by entry, on the extended reals. -/
def prod (x : FVec Ideal S100000x128 .f32) (w : FVec Ideal S128x64 .f32) : FVec Ideal S100000x64 .f32 :=
  fun i => ∑ k : Fin 128, x (ix2 (n0 := 100000) (i 0) k) * w (ix2 (n1 := 64) k (i 1))

/-- Its entry `(r, q)`. -/
theorem prod_apply (x : FVec Ideal S100000x128 .f32) (w : FVec Ideal S128x64 .f32) (r : Fin 100000) (q : Fin 64) :
    prod x w (ix2 r q) = ∑ k : Fin 128, x (ix2 r k) * w (ix2 k q) := rfl

/-- One tile's stored value at entry `(p, q)`: the sum over `k` of the loaded rows' `(p, k)` entry times the weights'
    `(k, q)` entry (the roundings to bf16 and the cast of the tile to its own shape are the identity on the extended reals; the
    accumulator is the zero splat). -/
theorem pay_apply (x0 : Vec Ideal S2000x128 .f32) (x1 : Vec Ideal S128x64 .f32) (p : Fin 2000) (q : Fin 64) :
    k1_pay1 (F := Ideal) x0 x1 (ix2 p q) = ∑ k : Fin 128, x0 (ix2 p k) * x1 (ix2 k q) := by
  unfold k1_pay1
  refine (Cert.LibDense.matmul_plain_zero_apply 2000 128 64 none
    (truncf .bf16 (shapeCast S2000x128 x0 shapeCasts_S2000x128_S2000x128) bitsLt_bf16_f32)
    (truncf .bf16 x1 bitsLt_bf16_f32) p q).trans ?_
  rw [shapeCast_self]
  rfl

theorem zeros : (![0, 0] : Fin 2 → Nat) = fun _ => 0 := funext fun a => by fin_cases a <;> rfl

/-- The printed index maps over the fifty points: the feature window and the result window sit at block row `t`, block
    column 0; the weight window at block `(0, 0)`. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 50 := N_1 ▸ t.isLt

variable (V : (c : Dev nD) → (b : Ref sig .tc) → Buf (Elt Ideal) ((c : Thread nD τ).loc b))

/-- The hidden-feature tile at point `t` holds rows `2000 t …` of the hidden-feature array. -/
theorem x_tile (c : Dev nD) (t : Fin cfg1.N) (p : Fin 2000) (k : Fin 128) (r : Fin 100000) (hr : r.val = t.val * 2000 + p.val) :
    iblk1 V c 0 t (ix2 p k) = V c main_v47 (ix2 r k) := by
  obtain ⟨e0, e1, -, -, -, -⟩ := index_facts t
  show V c main_v47 (((cfg1.win 0).blk t).view.emb (ix2 p k)) = V c main_v47 (ix2 r k)
  refine congrArg (V c main_v47) ?_
  funext a; apply Fin.ext
  match a with
  | ⟨0, _⟩ => show win1_0.index t (0 : Fin 2) * 2000 + 1 * p.val = r.val; omega
  | ⟨1, _⟩ => show win1_0.index t (1 : Fin 2) * 128 + 1 * k.val = k.val; omega

/-- The weight tile at every point is the whole weight array. -/
theorem w_tile (c : Dev nD) (t : Fin cfg1.N) (k : Fin 128) (q : Fin 64) :
    iblk1 V c 1 t (ix2 k q) = V c main_arg4 (ix2 k q) := by
  obtain ⟨-, -, e2, e3, -, -⟩ := index_facts t
  show V c main_arg4 (((cfg1.win 1).blk t).view.emb (ix2 k q)) = V c main_arg4 (ix2 k q)
  refine congrArg (V c main_arg4) ?_
  funext a; apply Fin.ext
  match a with
  | ⟨0, _⟩ => show win1_1.index t (0 : Fin 2) * 128 + 1 * k.val = k.val; omega
  | ⟨1, _⟩ => show win1_1.index t (1 : Fin 2) * 64 + 1 * q.val = q.val; omega

/-- Entry `(p, q)` of the result tile at point `t` is entry `(2000 t + p, q)` of the result array. -/
theorem out_tile (t : Fin cfg1.N) (p : Fin 2000) (q : Fin 64) (r : Fin 100000) (hr : r.val = t.val * 2000 + p.val) :
    ((cfg1.win 2).blk t).view.emb (ix2 p q) = (ix2 r q : S100000x64.Idx) := by
  obtain ⟨-, -, -, -, e4, e5⟩ := index_facts t
  funext a; apply Fin.ext
  match a with
  | ⟨0, _⟩ => show win1_2.index t (0 : Fin 2) * 2000 + 1 * p.val = r.val; omega
  | ⟨1, _⟩ => show win1_2.index t (1 : Fin 2) * 64 + 1 * q.val = q.val; omega

/-- What point `t` writes back is tile `t` of the product of the two operand arrays as the call finds them. -/
theorem flushed_eq (c : Dev nD) (t : Fin cfg1.N) :
    (dat1 V c).flushed 2 t = ((cfg1.win 2).blk t).view.read (Elt Ideal) (prod (V c main_v47) (V c main_arg4)) := by
  show (cfg1.win 2).cut (grid1.coords t) ((dat1 V c).after 2 t) = _
  rw [after1_2]
  unfold out1_2
  rw [View.canon_unit_zero zeros]
  simp only [View.ld_unit_zero (S := S2000x128) zeros, View.ld_unit_zero (S := S128x64) zeros]
  funext j
  obtain ⟨p, q, rfl⟩ : ∃ (p : Fin 2000) (q : Fin 64), j = ix2 p q := ⟨j 0, j 1, eq_ix2 j⟩
  have ht := point_lt t
  have hrow : t.val * 2000 + p.val < 100000 := by have := p.isLt; omega
  show k1_pay1 (F := Ideal) (iblk1 V c 0 t) (iblk1 V c 1 t) (ix2 p q)
    = prod (V c main_v47) (V c main_arg4) (((cfg1.win 2).blk t).view.emb (ix2 p q))
  rw [out_tile t p q ⟨t.val * 2000 + p.val, hrow⟩ rfl, prod_apply]
  refine (pay_apply (iblk1 V c 0 t) (iblk1 V c 1 t) p q).trans ?_
  refine Finset.sum_congr rfl fun k _ => ?_
  rw [x_tile V c t p k ⟨t.val * 2000 + p.val, hrow⟩ rfl, w_tile V c t k q]

/-- An index of the result array is in point `t`'s tile iff each coordinate is in the tile's range on its axis. -/
theorem mem_tile (t : Fin cfg1.N) (i : S100000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v48).slice (win1_2.rect t)).set ↔ _
  rw [View.set_slice_whole, Rect.mem_set_unit]
  exact Iff.rfl

/-- Every index of the result array is in some point's tile: row `r` in tile `r / 2000`. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 2000 < cfg1.N := by rw [show cfg1.N = 50 from N_1]; omega
  refine ⟨⟨(i 0).val / 2000, hN⟩, flush1_2 _, ?_⟩
  rw [mem_tile]
  obtain ⟨-, -, -, -, e4, e5⟩ := index_facts ⟨(i 0).val / 2000, hN⟩
  intro a
  match a with
  | ⟨0, _⟩ =>
    show win1_2.index ⟨(i 0).val / 2000, hN⟩ (0 : Fin 2) * 2000 ≤ (i 0).val
      ∧ (i 0).val < win1_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, hN⟩ (1 : Fin 2) * 64 ≤ (i 1).val
      ∧ (i 1).val < win1_2.index ⟨(i 0).val / 2000, hN⟩ (1 : Fin 2) * 64 + 64
    rw [e5]; omega

/-- After the call the result array holds the product of the two operand arrays as the call found them. -/
theorem final (c : Dev nD) : (dat1 V c).arrAt 2 cfg1.N = prod (V c main_v47) (V c main_arg4) :=
  (dat1 V c).arrAt_eq_of_cover 2 (prod (V c main_v47) (V c main_arg4)) (fun t _ => flushed_eq V c t) covered

end Cert.KernelIdeal.Tile1

end
-- ==== Proof.KernelValue.lean ====
import proofs.«125550_j14001593385007_1_alg».proof.Proof.KernelChain
import proofs.«125550_j14001593385007_1_alg».proof.Proof.Tile0
import proofs.«125550_j14001593385007_1_alg».proof.Proof.Tile1

/-!
# The kernel's result as one function of its arguments

On the extended reals the kernel's program leaves in its result buffer

  `layer2 ((layer1 (x · W₁) src dst norm b₁) · W₂) src dst norm b₂`

with `src`, `dst`, `norm` built from the edge list: the chain of the boundary contents (read back stretch by
stretch and call by call) with each call's result array replaced by the whole product of the two arrays the call
found in its operand buffers.
-/

set_option maxRecDepth 16384

noncomputable section

namespace Cert.KernelIdeal.Out

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first call's result: the product of the feature array by the first weight array, as launched. -/
theorem prod1 (c : Dev nD) :
    W4 m ρ c (Proc.devRef .tc main_v30) = Tile0.prod (m ((c : Thread nD τ).loc main_arg0)) (m ((c : Thread nD τ).loc main_arg2)) := by
  rw [prod1_at_exit, Tile0.final (V3 m ρ) c]
  show Tile0.prod (W3 m ρ c (Proc.devRef .tc main_arg0)) (W3 m ρ c (Proc.devRef .tc main_arg2)) = _
  rw [x_at_entry1, w1_at_entry1]

/-- The sources, the destinations and the edge weights, at every later boundary, are those built from the edge list. -/
theorem src4 (c : Dev nD) : W4 m ρ c (Proc.devRef .tc main_v5) = Cert.Gcn.src (m ((c : Thread nD τ).loc main_arg1)) := by
  rw [src_across1, src_at_entry1]
theorem dst4 (c : Dev nD) : W4 m ρ c (Proc.devRef .tc main_v6) = Cert.Gcn.dst (m ((c : Thread nD τ).loc main_arg1)) := by
  rw [dst_across1, dst_at_entry1]
theorem norm4 (c : Dev nD) : W4 m ρ c (Proc.devRef .tc main_v29)
    = Cert.Gcn.norm (Cert.Gcn.src (m ((c : Thread nD τ).loc main_arg1))) (Cert.Gcn.dst (m ((c : Thread nD τ).loc main_arg1))) := by
  rw [norm_across1, norm_at_entry1]

/-- The hidden features the second call is entered with. -/
theorem hidden (c : Dev nD) :
    W6 m ρ c (Proc.devRef .tc main_v47)
      = Cert.Gcn.layer1 (Tile0.prod (m ((c : Thread nD τ).loc main_arg0)) (m ((c : Thread nD τ).loc main_arg2))) (Cert.Gcn.src (m ((c : Thread nD τ).loc main_arg1)))
          (Cert.Gcn.dst (m ((c : Thread nD τ).loc main_arg1))) (Cert.Gcn.norm (Cert.Gcn.src (m ((c : Thread nD τ).loc main_arg1))) (Cert.Gcn.dst (m ((c : Thread nD τ).loc main_arg1))))
          (m ((c : Thread nD τ).loc main_arg3)) := by
  rw [hidden_at_entry2, prod1, src4, dst4, norm4, b1_across1, b1_at_entry1]

/-- The second call's result: the product of the hidden features by the second weight array. -/
theorem prod2 (c : Dev nD) :
    W7 m ρ c (Proc.devRef .tc main_v48) = Tile1.prod (W6 m ρ c (Proc.devRef .tc main_v47)) (m ((c : Thread nD τ).loc main_arg4)) := by
  rw [prod2_at_exit, Tile1.final (V6 m ρ) c]
  show Tile1.prod (W6 m ρ c (Proc.devRef .tc main_v47)) (W6 m ρ c (Proc.devRef .tc main_arg4)) = _
  rw [w2_between, w2_across1, w2_at_entry1]

/-- THE RESULT: the kernel's program ends with its result buffer at this function of the argument arrays. -/
def result (x : FVec Ideal S100000x256 .f32) (e : (⟨S2x1600000, .i32⟩ : BufTy).Contents (Elt Ideal))
    (w1 : FVec Ideal S256x128 .f32) (b1 : FVec Ideal S128 .f32) (w2 : FVec Ideal S128x64 .f32) (b2 : FVec Ideal S64 .f32) :
    FVec Ideal S100000x64 .f32 :=
  Cert.Gcn.layer2 (Tile1.prod (Cert.Gcn.layer1 (Tile0.prod x w1) (Cert.Gcn.src e) (Cert.Gcn.dst e)
      (Cert.Gcn.norm (Cert.Gcn.src e) (Cert.Gcn.dst e)) b1) w2)
    (Cert.Gcn.src e) (Cert.Gcn.dst e) (Cert.Gcn.norm (Cert.Gcn.src e) (Cert.Gcn.dst e)) b2

theorem out_eq (c : Dev nD) :
    W8 m ρ c (Proc.devRef .tc main_v64)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [out_at_end, prod2, hidden, src_across2, src_between, src4, dst_across2, dst_between, dst4,
    norm_across2, norm_between, norm4, b2_across2, b2_between, b2_across1, b2_at_entry1]
  rfl

end Cert.KernelIdeal.Out

end
-- ==== Proof.RefValue.lean ====
import proofs.«125550_j14001593385007_1_alg».proof.Proof.RefRun
import proofs.«125550_j14001593385007_1_alg».proof.Proof.Gcn
import proofs.«125550_j14001593385007_1_alg».proof.Proof.LibContract
import proofs.«125550_j14001593385007_1_alg».proof.Proof.KernelValue

/-!
# The reference's result is the kernel's function of the arguments

The reference's run ends with its result at the composed term of its eighty-three host operations. That term is the
same chain as the kernel's — the sources, the destinations, the edge weights, the two layers' aggregations — around the
host's two `dot_general`s, and on the extended reals a `dot_general` contracting the left operand's columns with the
right operand's rows is, entry by entry, the sum `∑ k, a[r, k] · b[k, q]`: the whole product that the kernel's tiles make
up. So the two results are one function of the arguments.
-/

set_option maxRecDepth 16384

noncomputable section

namespace Cert.ReferenceIdeal.Out

open Idealize.ShloMosaic Idealize.ShloMosaic.TcCoe Idealize.ShloMosaic.ValueIdx Idealize.SL.Sem
open Cert.ReferenceIdeal Cert.ReferenceIdeal.Gen

/-- The reference's result term is the chain around its two `dot_general`s (at any float family: the two sides are
    the same operations in the same order). -/
theorem res_eq_chain {F : FTy → Type} [FloatOps F] (m : (ℓ : Loc nD τ sig) → Buf (Elt F) ℓ) (c : Dev nD) :
    Cert.ReferenceIdeal.ValueP.res_main_v64 m c
      = Cert.Gcn.layer2 (Host.dotGeneral dot_S100000x128_S128x64_S100000x64_1_0_0_1_n_n none
          (Cert.Gcn.layer1 (Host.dotGeneral dot_S100000x256_S256x128_S100000x128_1_0_0_1_n_n none (m ((c.tc : Thread nD τ).loc main_arg0)) (m ((c.tc : Thread nD τ).loc main_arg2)))
            (Cert.Gcn.src (m ((c.tc : Thread nD τ).loc main_arg1))) (Cert.Gcn.dst (m ((c.tc : Thread nD τ).loc main_arg1)))
            (Cert.Gcn.norm (Cert.Gcn.src (m ((c.tc : Thread nD τ).loc main_arg1))) (Cert.Gcn.dst (m ((c.tc : Thread nD τ).loc main_arg1)))) (m ((c.tc : Thread nD τ).loc main_arg3)))
          (m ((c.tc : Thread nD τ).loc main_arg4)))
        (Cert.Gcn.src (m ((c.tc : Thread nD τ).loc main_arg1))) (Cert.Gcn.dst (m ((c.tc : Thread nD τ).loc main_arg1)))
        (Cert.Gcn.norm (Cert.Gcn.src (m ((c.tc : Thread nD τ).loc main_arg1))) (Cert.Gcn.dst (m ((c.tc : Thread nD τ).loc main_arg1)))) (m ((c.tc : Thread nD τ).loc main_arg5)) := by
  unfold Cert.ReferenceIdeal.ValueP.res_main_v64
  rfl

/-- The first `dot_general` is the whole product `x · W₁`. -/
theorem dot1_eq (x : FVec Ideal S100000x256 .f32) (w : FVec Ideal S256x128 .f32) :
    Host.dotGeneral dot_S100000x256_S256x128_S100000x128_1_0_0_1_n_n none x w = Cert.KernelIdeal.Tile0.prod x w := by
  funext i
  obtain ⟨r, q, rfl⟩ : ∃ (r : Fin 100000) (q : Fin 128), i = ix2 r q := ⟨i 0, i 1, eq_ix2 i⟩
  exact Cert.LibDense.dotGeneral_plain_apply 100000 256 128 none x w r q

/-- The second `dot_general` is the whole product `h · W₂`. -/
theorem dot2_eq (x : FVec Ideal S100000x128 .f32) (w : FVec Ideal S128x64 .f32) :
    Host.dotGeneral dot_S100000x128_S128x64_S100000x64_1_0_0_1_n_n none x w = Cert.KernelIdeal.Tile1.prod x w := by
  funext i
  obtain ⟨r, q, rfl⟩ : ∃ (r : Fin 100000) (q : Fin 64), i = ix2 r q := ⟨i 0, i 1, eq_ix2 i⟩
  exact Cert.LibDense.dotGeneral_plain_apply 100000 128 64 none x w r q

/-- On the extended reals the reference's result is the kernel's function of the arguments. -/
theorem res_eq (m : (ℓ : Loc nD τ sig) → Buf (Elt Ideal) ℓ) (c : Dev nD) :
    Cert.ReferenceIdeal.ValueP.res_main_v64 m c
      = Cert.KernelIdeal.Out.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [res_eq_chain, dot1_eq, dot2_eq]
  rfl

end Cert.ReferenceIdeal.Out

end
-- ==== Proof.lean ====
/-
  The certificate of a two-layer graph convolution whose two dense transforms run as tiled kernels.

  Kernel and reference build the same sources, destinations (one self loop per node appended), in-degrees, inverse
  square roots and edge weights from the edge list, and aggregate each layer in the same way (rows gathered at the
  sources, scaled by the edge weights, added up at the destinations, the bias added; a maximum with zero after the first
  layer). They differ only in the two dense transforms `x · W₁` and `h · W₂`: the reference forms each with one host
  `dot_general`; the kernel forms each in fifty row tiles of 2000 rows, every tile the product of its rows (rounded to
  bf16) by the whole weight matrix (rounded to bf16) into a zero accumulator. On the extended reals the roundings are
  the identity and the accumulator's zero adds nothing, so each tile entry is `∑ k, a[r, k] · W[k, q]`, the tiles cover
  every row, and the tiled result is the whole product, entry by entry: the two programs end with one function of the
  arguments. No law beyond "a sum is a sum" is used, so the inputs' finiteness is never opened.

  The frames of the two kernel programs are the generated ones; the reference's frame is its run with the result
  dropped; the idealization rewrote nothing, so `preserves` is trivial.
-/
import proofs.«125550_j14001593385007_1_alg».proof.Defs
import proofs.«125550_j14001593385007_1_alg».proof.Proof.Gen.Kernel
import proofs.«125550_j14001593385007_1_alg».proof.Proof.Gen.Kernel.Frame
import proofs.«125550_j14001593385007_1_alg».proof.Proof.Gen.KernelIdeal
import proofs.«125550_j14001593385007_1_alg».proof.Proof.Gen.KernelIdeal.Frame
import proofs.«125550_j14001593385007_1_alg».proof.Proof.Gen.ReferenceIdeal
import proofs.«125550_j14001593385007_1_alg».proof.Proof.Gen.Pre_finite_inputs
import proofs.«125550_j14001593385007_1_alg».proof.Proof.RefRun
import proofs.«125550_j14001593385007_1_alg».proof.Proof.KernelRun
import proofs.«125550_j14001593385007_1_alg».proof.Proof.KernelValue
import proofs.«125550_j14001593385007_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result at `Out.result` of the arguments: the kernel's by its boundary contents read back
    (`Out.out_eq`), the reference's by its run term (`Out.res_eq`), from memories that agree on the arguments. -/
theorem algebraic : Cert.algebraic_KernelIdeal_ReferenceIdeal := by
  intro m ρ m' ρ' _ hagree
  refine ⟨fun c => Cert.KernelIdeal.Out.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Out.out_eq m ρ c), (h c).2⟩)
      (Cert.KernelIdeal.GenP.run_out (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Out.res_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
